-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S64x1024 : Shape := ⟨2, ![64, 1024]⟩
abbrev S64x128 : Shape := ⟨2, ![64, 128]⟩
abbrev S16x64 : Shape := ⟨2, ![16, 64]⟩
abbrev S16384 : Shape := ⟨1, ![16384]⟩
abbrev S100000x5 : Shape := ⟨2, ![100000, 5]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64x128 : S_.BroadcastsInDim S64x128 (![] : Fin 0 → Fin S64x128.rank)
  reducesTo_S64x128_S_d0_1 : S64x128.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S100000x512 .f32) (main_arg1 : FVec F S64x1024 .f32) (main_arg2 : FVec F S64x128 .f32) (main_arg3 : FVec F S16x64 .f32) (main_arg4 : IVec S16384 32) (main_arg5 : IVec S100000x5 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Kernel.lean ====
abbrev S100000x512 : Shape := ⟨2, ![100000, 512]⟩
abbrev S64x1024 : Shape := ⟨2, ![64, 1024]⟩
abbrev S64x128 : Shape := ⟨2, ![64, 128]⟩
abbrev S16x64 : Shape := ⟨2, ![16, 64]⟩
abbrev S16384 : Shape := ⟨1, ![16384]⟩
abbrev S100000x5 : Shape := ⟨2, ![100000, 5]⟩
abbrev S_ : Shape := ⟨0, ![]⟩
abbrev S100000x5x1 : Shape := ⟨3, ![100000, 5, 1]⟩
abbrev S100000x5x512 : Shape := ⟨3, ![100000, 5, 512]⟩
abbrev S64x512 : Shape := ⟨2, ![64, 512]⟩
abbrev S512x64 : Shape := ⟨2, ![512, 64]⟩
abbrev S100000x64 : Shape := ⟨2, ![100000, 64]⟩
abbrev S2000x512 : Shape := ⟨2, ![2000, 512]⟩
abbrev S2000x64 : Shape := ⟨2, ![2000, 64]⟩
abbrev S16384x1 : Shape := ⟨2, ![16384, 1]⟩
abbrev S16384x64 : Shape := ⟨2, ![16384, 64]⟩
abbrev S16384x5 : Shape := ⟨2, ![16384, 5]⟩
abbrev S16384x5x1 : Shape := ⟨3, ![16384, 5, 1]⟩
abbrev S16384x5x64 : Shape := ⟨3, ![16384, 5, 64]⟩
abbrev S64x64 : Shape := ⟨2, ![64, 64]⟩
abbrev S64x16 : Shape := ⟨2, ![64, 16]⟩
abbrev S16384x16 : Shape := ⟨2, ![16384, 16]⟩
abbrev S2048x64 : Shape := ⟨2, ![2048, 64]⟩
abbrev S2048x16 : Shape := ⟨2, ![2048, 16]⟩

abbrev nBuf : Space → Nat
  | .hbm => 63
  | .vmem => 17
  | .smem => 0
  | _ => 0

abbrev bufTy : (tb : Table) → Fin (tcTables nBuf tb) → BufTy
  | .hbm, ⟨0, _⟩ => ⟨S100000x512, .f32⟩
  | .hbm, ⟨1, _⟩ => ⟨S64x1024, .f32⟩
  | .hbm, ⟨2, _⟩ => ⟨S64x128, .f32⟩
  | .hbm, ⟨3, _⟩ => ⟨S16x64, .f32⟩
  | .hbm, ⟨4, _⟩ => ⟨S16384, .i32⟩
  | .hbm, ⟨5, _⟩ => ⟨S100000x5, .i32⟩
  | .hbm, ⟨6, _⟩ => ⟨S_, .i32⟩
  | .hbm, ⟨7, _⟩ => ⟨S100000x5, .i32⟩
  | .hbm, ⟨8, _⟩ => ⟨S100000x5, .i1⟩
  | .hbm, ⟨9, _⟩ => ⟨S_, .i32⟩
  | .hbm, ⟨10, _⟩ => ⟨S100000x5, .i32⟩
  | .hbm, ⟨11, _⟩ => ⟨S100000x5, .i32⟩
  | .hbm, ⟨12, _⟩ => ⟨S100000x5, .i32⟩
  | .hbm, ⟨13, _⟩ => ⟨S100000x5x1, .i32⟩
  | .hbm, ⟨14, _⟩ => ⟨S100000x5x512, .f32⟩
  | .hbm, ⟨15, _⟩ => ⟨S_, .f32⟩
  | .hbm, ⟨16, _⟩ => ⟨S100000x512, .f32⟩
  | .hbm, ⟨17, _⟩ => ⟨S_, .f32⟩
  | .hbm, ⟨18, _⟩ => ⟨S100000x512, .f32⟩
  | .hbm, ⟨19, _⟩ => ⟨S100000x512, .f32⟩
  | .hbm, ⟨20, _⟩ => ⟨S64x512, .f32⟩
  | .hbm, ⟨21, _⟩ => ⟨S512x64, .f32⟩
  | .hbm, ⟨22, _⟩ => ⟨S64x512, .f32⟩
  | .hbm, ⟨23, _⟩ => ⟨S512x64, .f32⟩
  | .hbm, ⟨24, _⟩ => ⟨S100000x64, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x64, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384x5, .i32⟩
  | .hbm, ⟨43, _⟩ => ⟨S_, .i32⟩
  | .hbm, ⟨44, _⟩ => ⟨S16384x5, .i32⟩
  | .hbm, ⟨45, _⟩ => ⟨S16384x5, .i1⟩
  | .hbm, ⟨46, _⟩ => ⟨S_, .i32⟩
  | .hbm, ⟨47, _⟩ => ⟨S16384x5, .i32⟩
  | .hbm, ⟨48, _⟩ => ⟨S16384x5, .i32⟩
  | .hbm, ⟨49, _⟩ => ⟨S16384x5, .i32⟩
  | .hbm, ⟨50, _⟩ => ⟨S16384x5x1, .i32⟩
  | .hbm, ⟨51, _⟩ => ⟨S16384x5x64, .f32⟩
  | .hbm, ⟨52, _⟩ => ⟨S_, .f32⟩
  | .hbm, ⟨53, _⟩ => ⟨S16384x64, .f32⟩
  | .hbm, ⟨54, _⟩ => ⟨S_, .f32⟩
  | .hbm, ⟨55, _⟩ => ⟨S16384x64, .f32⟩
  | .hbm, ⟨56, _⟩ => ⟨S16384x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x16, .f32⟩
  | .hbm, ⟨62, _⟩ => ⟨S16384x16, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x64, .f32⟩
  | .local _ .vmem, ⟨5, _⟩ => ⟨S512x64, .f32⟩
  | .local _ .vmem, ⟨6, _⟩ => ⟨S2000x64, .f32⟩
  | .local _ .vmem, ⟨7, _⟩ => ⟨S2000x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S64x64, .f32⟩
  | .local _ .vmem, ⟨13, _⟩ => ⟨S64x64, .f32⟩
  | .local _ .vmem, ⟨14, _⟩ => ⟨S64x16, .f32⟩
  | .local _ .vmem, ⟨15, _⟩ => ⟨S2048x16, .f32⟩
  | .local _ .vmem, ⟨16, _⟩ => ⟨S2048x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S100000x5 : S_.BroadcastsInDim S100000x5 (![] : Fin 0 → Fin S100000x5.rank)
  bcast_S100000x5_S100000x5x1_0_1 : S100000x5.BroadcastsInDim S100000x5x1 (![0, 1] : Fin 2 → Fin S100000x5x1.rank)
  reducesTo_S100000x5x512_S100000x512_d1 : S100000x5x512.ReducesTo [1] S100000x512
  h_S_ : 0 < S_.numel
  bcast_S_S100000x512 : S_.BroadcastsInDim S100000x512 (![] : Fin 0 → Fin S100000x512.rank)
  slices_S64x1024_S64x512_0_0 : S64x1024.Slices ![0, 0] S64x512
  transposes_S64x512_S512x64_1_0 : S64x512.Transposes [1, 0] S512x64
  slices_S64x1024_S64x512_0_512 : S64x1024.Slices ![0, 512] S64x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2000x64_S2000x64_0_0 : ∀ a, (![0, 0] : Fin 2 → Nat) a + S2000x64.size a ≤ S2000x64.size a
  h_S2000x64 : 0 < S2000x64.numel
  bcast_S_S16384 : S_.BroadcastsInDim S16384 (![] : Fin 0 → Fin S16384.rank)
  bcast_S16384_S16384x1_0 : S16384.BroadcastsInDim S16384x1 (![0] : Fin 1 → Fin S16384x1.rank)
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  reducesTo_S16384x5x64_S16384x64_d1 : S16384x5x64.ReducesTo [1] S16384x64
  bcast_S_S16384x64 : S_.BroadcastsInDim S16384x64 (![] : Fin 0 → Fin S16384x64.rank)
  slices_S64x128_S64x64_0_0 : S64x128.Slices ![0, 0] S64x64
  transposes_S64x64_S64x64_1_0 : S64x64.Transposes [1, 0] S64x64
  slices_S64x128_S64x64_0_64 : S64x128.Slices ![0, 64] S64x64
  transposes_S16x64_S64x16_1_0 : S16x64.Transposes [1, 0] S64x16
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S2048x16_S2048x16_0_0 : ∀ a, (![0, 0] : Fin 2 → Nat) a + S2048x16.size a ≤ S2048x16.size a
  h_S2048x16 : 0 < S2048x16.numel
  gather_S100000x512_S100000x5x1_S100000x5x512_2_0_n_n_0_2_1512_wf : GatherDims.WF S100000x512 S100000x5x1 S100000x5x512 [2] [0] [] [0] [] 2 ![1, 512]
  dot_S2000x512_S512x64_S2000x64_1_0_0_1_n_n_wf : DotDims.WF S2000x512 S512x64 S2000x64 [1] [0] [0] [1] [] []
  gather_S100000x64_S16384x1_S16384x64_1_0_n_n_0_1_164_wf : GatherDims.WF S100000x64 S16384x1 S16384x64 [1] [0] [] [0] [] 1 ![1, 64]
  gather_S100000x5_S16384x1_S16384x5_1_0_n_n_0_1_15_wf : GatherDims.WF S100000x5 S16384x1 S16384x5 [1] [0] [] [0] [] 1 ![1, 5]
  gather_S100000x64_S16384x5x1_S16384x5x64_2_0_n_n_0_2_164_wf : GatherDims.WF S100000x64 S16384x5x1 S16384x5x64 [2] [0] [] [0] [] 2 ![1, 64]
  dot_S2048x64_S64x64_S2048x64_1_0_0_1_n_n_wf : DotDims.WF S2048x64 S64x64 S2048x64 [1] [0] [0] [1] [] []
  dot_S2048x64_S64x16_S2048x16_1_0_0_1_n_n_wf : DotDims.WF S2048x64 S64x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S64x16.size a
  hwx1_4 : ∀ i : grid1.Coords, EltTy.bits .f32 = 32 ∨ (Rect.block (s := S64x16) S64x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x16.size a ≤ S16384x16.size a
  hwx1_5 : ∀ i : grid1.Coords, EltTy.bits .f32 = 32 ∨ (Rect.block (s := S16384x16) S2048x16.size (cc1_transform_5 i) (hinb1_5 i)).WholeWords (EltTy.packing .f32)

variable [Facts₀]

def gather_S100000x512_S100000x5x1_S100000x5x512_2_0_n_n_0_2_1512 : GatherDims S100000x512 S100000x5x1 S100000x5x512 where
  offsetDims := [2]
  collapsedSliceDims := [0]
  operandBatchingDims := []
  startIndicesBatchingDims := []
  startIndexMap := [0]
  indexVectorDim := 2
  sliceSizes := ![1, 512]
  wf := gather_S100000x512_S100000x5x1_S100000x5x512_2_0_n_n_0_2_1512_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000x5_S16384x1_S16384x5_1_0_n_n_0_1_15 : GatherDims S100000x5 S16384x1 S16384x5 where
  offsetDims := [1]
  collapsedSliceDims := [0]
  operandBatchingDims := []
  startIndicesBatchingDims := []
  startIndexMap := [0]
  indexVectorDim := 1
  sliceSizes := ![1, 5]
  wf := gather_S100000x5_S16384x1_S16384x5_1_0_n_n_0_1_15_wf
def gather_S100000x64_S16384x5x1_S16384x5x64_2_0_n_n_0_2_164 : GatherDims S100000x64 S16384x5x1 S16384x5x64 where
  offsetDims := [2]
  collapsedSliceDims := [0]
  operandBatchingDims := []
  startIndicesBatchingDims := []
  startIndexMap := [0]
  indexVectorDim := 2
  sliceSizes := ![1, 64]
  wf := gather_S100000x64_S16384x5x1_S16384x5x64_2_0_n_n_0_2_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S64x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2048x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x512 : Shape := ⟨2, ![100000, 512]⟩
abbrev S64x1024 : Shape := ⟨2, ![64, 1024]⟩
abbrev S64x128 : Shape := ⟨2, ![64, 128]⟩
abbrev S16x64 : Shape := ⟨2, ![16, 64]⟩
abbrev S16384 : Shape := ⟨1, ![16384]⟩
abbrev S100000x5 : Shape := ⟨2, ![100000, 5]⟩
abbrev S_ : Shape := ⟨0, ![]⟩
abbrev S100000x5x1 : Shape := ⟨3, ![100000, 5, 1]⟩
abbrev S100000x5x512 : Shape := ⟨3, ![100000, 5, 512]⟩
abbrev S100000x1024 : Shape := ⟨2, ![100000, 1024]⟩
abbrev S1024x64 : Shape := ⟨2, ![1024, 64]⟩
abbrev S100000x64 : Shape := ⟨2, ![100000, 64]⟩
abbrev S16384x1 : Shape := ⟨2, ![16384, 1]⟩
abbrev S16384x64 : Shape := ⟨2, ![16384, 64]⟩
abbrev S16384x5 : Shape := ⟨2, ![16384, 5]⟩
abbrev S16384x5x1 : Shape := ⟨3, ![16384, 5, 1]⟩
abbrev S16384x5x64 : Shape := ⟨3, ![16384, 5, 64]⟩
abbrev S16384x128 : Shape := ⟨2, ![16384, 128]⟩
abbrev S128x64 : Shape := ⟨2, ![128, 64]⟩
abbrev S64x16 : Shape := ⟨2, ![64, 16]⟩
abbrev S16384x16 : Shape := ⟨2, ![16384, 16]⟩

abbrev nBuf : Space → Nat
  | .hbm => 66
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S64x1024, .f32⟩
  | .hbm, ⟨2, _⟩ => ⟨S64x128, .f32⟩
  | .hbm, ⟨3, _⟩ => ⟨S16x64, .f32⟩
  | .hbm, ⟨4, _⟩ => ⟨S16384, .i32⟩
  | .hbm, ⟨5, _⟩ => ⟨S100000x5, .i32⟩
  | .hbm, ⟨6, _⟩ => ⟨S_, .i32⟩
  | .hbm, ⟨7, _⟩ => ⟨S100000x5, .i32⟩
  | .hbm, ⟨8, _⟩ => ⟨S100000x5, .i1⟩
  | .hbm, ⟨9, _⟩ => ⟨S_, .i32⟩
  | .hbm, ⟨10, _⟩ => ⟨S100000x5, .i32⟩
  | .hbm, ⟨11, _⟩ => ⟨S100000x5, .i32⟩
  | .hbm, ⟨12, _⟩ => ⟨S100000x5, .i32⟩
  | .hbm, ⟨13, _⟩ => ⟨S100000x5x1, .i32⟩
  | .hbm, ⟨14, _⟩ => ⟨S100000x5x512, .f32⟩
  | .hbm, ⟨15, _⟩ => ⟨S_, .f32⟩
  | .hbm, ⟨16, _⟩ => ⟨S100000x512, .f32⟩
  | .hbm, ⟨17, _⟩ => ⟨S_, .f32⟩
  | .hbm, ⟨18, _⟩ => ⟨S100000x512, .f32⟩
  | .hbm, ⟨19, _⟩ => ⟨S100000x512, .f32⟩
  | .hbm, ⟨20, _⟩ => ⟨S100000x1024, .f32⟩
  | .hbm, ⟨21, _⟩ => ⟨S1024x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S16384x64, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S16384x5, .i32⟩
  | .hbm, ⟨44, _⟩ => ⟨S_, .i32⟩
  | .hbm, ⟨45, _⟩ => ⟨S16384x5, .i32⟩
  | .hbm, ⟨46, _⟩ => ⟨S16384x5, .i1⟩
  | .hbm, ⟨47, _⟩ => ⟨S_, .i32⟩
  | .hbm, ⟨48, _⟩ => ⟨S16384x5, .i32⟩
  | .hbm, ⟨49, _⟩ => ⟨S16384x5, .i32⟩
  | .hbm, ⟨50, _⟩ => ⟨S16384x5, .i32⟩
  | .hbm, ⟨51, _⟩ => ⟨S16384x5x1, .i32⟩
  | .hbm, ⟨52, _⟩ => ⟨S16384x5x64, .f32⟩
  | .hbm, ⟨53, _⟩ => ⟨S_, .f32⟩
  | .hbm, ⟨54, _⟩ => ⟨S16384x64, .f32⟩
  | .hbm, ⟨55, _⟩ => ⟨S_, .f32⟩
  | .hbm, ⟨56, _⟩ => ⟨S16384x64, .f32⟩
  | .hbm, ⟨57, _⟩ => ⟨S16384x64, .f32⟩
  | .hbm, ⟨58, _⟩ => ⟨S16384x128, .f32⟩
  | .hbm, ⟨59, _⟩ => ⟨S128x64, .f32⟩
  | .hbm, ⟨60, _⟩ => ⟨S16384x64, .f32⟩
  | .hbm, ⟨61, _⟩ => ⟨S_, .f32⟩
  | .hbm, ⟨62, _⟩ => ⟨S16384x64, .f32⟩
  | .hbm, ⟨63, _⟩ => ⟨S16384x64, .f32⟩
  | .hbm, ⟨64, _⟩ => ⟨S64x16, .f32⟩
  | .hbm, ⟨65, _⟩ => ⟨S16384x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  bcast_S_S100000x5 : S_.BroadcastsInDim S100000x5 (![] : Fin 0 → Fin S100000x5.rank)
  bcast_S100000x5_S100000x5x1_0_1 : S100000x5.BroadcastsInDim S100000x5x1 (![0, 1] : Fin 2 → Fin S100000x5x1.rank)
  reducesTo_S100000x5x512_S100000x512_d1 : S100000x5x512.ReducesTo [1] S100000x512
  h_S_ : 0 < S_.numel
  bcast_S_S100000x512 : S_.BroadcastsInDim S100000x512 (![] : Fin 0 → Fin S100000x512.rank)
  concatenates_S100000x512_S100000x512_S100000x1024_d1 : Shape.Concatenates [S100000x512, S100000x512] S100000x1024 1
  transposes_S64x1024_S1024x64_1_0 : S64x1024.Transposes [1, 0] S1024x64
  bcast_S_S100000x64 : S_.BroadcastsInDim S100000x64 (![] : Fin 0 → Fin S100000x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  reducesTo_S16384x5x64_S16384x64_d1 : S16384x5x64.ReducesTo [1] S16384x64
  bcast_S_S16384x64 : S_.BroadcastsInDim S16384x64 (![] : Fin 0 → Fin S16384x64.rank)
  concatenates_S16384x64_S16384x64_S16384x128_d1 : Shape.Concatenates [S16384x64, S16384x64] S16384x128 1
  transposes_S64x128_S128x64_1_0 : S64x128.Transposes [1, 0] S128x64
  transposes_S16x64_S64x16_1_0 : S16x64.Transposes [1, 0] S64x16
  gather_S100000x512_S100000x5x1_S100000x5x512_2_0_n_n_0_2_1512_wf : GatherDims.WF S100000x512 S100000x5x1 S100000x5x512 [2] [0] [] [0] [] 2 ![1, 512]
  dot_S100000x1024_S1024x64_S100000x64_1_0_0_1_n_n_wf : DotDims.WF S100000x1024 S1024x64 S100000x64 [1] [0] [0] [1] [] []
  gather_S100000x64_S16384x1_S16384x64_1_0_n_n_0_1_164_wf : GatherDims.WF S100000x64 S16384x1 S16384x64 [1] [0] [] [0] [] 1 ![1, 64]
  gather_S100000x5_S16384x1_S16384x5_1_0_n_n_0_1_15_wf : GatherDims.WF S100000x5 S16384x1 S16384x5 [1] [0] [] [0] [] 1 ![1, 5]
  gather_S100000x64_S16384x5x1_S16384x5x64_2_0_n_n_0_2_164_wf : GatherDims.WF S100000x64 S16384x5x1 S16384x5x64 [2] [0] [] [0] [] 2 ![1, 64]
  dot_S16384x128_S128x64_S16384x64_1_0_0_1_n_n_wf : DotDims.WF S16384x128 S128x64 S16384x64 [1] [0] [0] [1] [] []
  dot_S16384x64_S64x16_S16384x16_1_0_0_1_n_n_wf : DotDims.WF S16384x64 S64x16 S16384x16 [1] [0] [0] [1] [] []

variable [Facts₀]

def gather_S100000x512_S100000x5x1_S100000x5x512_2_0_n_n_0_2_1512 : GatherDims S100000x512 S100000x5x1 S100000x5x512 where
  offsetDims := [2]
  collapsedSliceDims := [0]
  operandBatchingDims := []
  startIndicesBatchingDims := []
  startIndexMap := [0]
  indexVectorDim := 2
  sliceSizes := ![1, 512]
  wf := gather_S100000x512_S100000x5x1_S100000x5x512_2_0_n_n_0_2_1512_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000x5_S16384x1_S16384x5_1_0_n_n_0_1_15 : GatherDims S100000x5 S16384x1 S16384x5 where
  offsetDims := [1]
  collapsedSliceDims := [0]
  operandBatchingDims := []
  startIndicesBatchingDims := []
  startIndexMap := [0]
  indexVectorDim := 1
  sliceSizes := ![1, 5]
  wf := gather_S100000x5_S16384x1_S16384x5_1_0_n_n_0_1_15_wf
def gather_S100000x64_S16384x5x1_S16384x5x64_2_0_n_n_0_2_164 : GatherDims S100000x64 S16384x5x1 S16384x5x64 where
  offsetDims := [2]
  collapsedSliceDims := [0]
  operandBatchingDims := []
  startIndicesBatchingDims := []
  startIndexMap := [0]
  indexVectorDim := 2
  sliceSizes := ![1, 64]
  wf := gather_S100000x64_S16384x5x1_S16384x5x64_2_0_n_n_0_2_164_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf

class Facts : Prop extends Facts₀ where

variable [Facts]
-- ==== Proof.Spec.lean ====
/-
  The two dense stages of the two-layer mean-aggregating graph network, as functions of whole matrices over the
  extended reals, and the one law that joins the kernel's arrangement to the reference's.

  A stage takes a row block `a` of "self" features and a row block `b` of neighbour means, both `[R, K]`, and computes
  `max (a · wa + b · wb) 0` with two `[K, H]` weight halves (`dense2`). The reference instead joins `a` and `b` side by
  side into `[R, K + K]` and multiplies by ONE `[K + K, H]` matrix whose first `K` rows are `wa` and whose last `K` rows
  are `wb`. The sum over the `K + K` joined columns splits into the sum over the first `K` and the sum over the last
  `K` (`sum_split`): that needs only that addition on the extended reals is commutative and associative, so no
  finiteness of the inputs is used anywhere.
-/
import Idealize.ShloMosaic.Lib.ValueIdx
import Idealize.ShloMosaic.PureOps.Ideal.Laws

open scoped BigOperators

noncomputable section

namespace Sage

open Idealize.ShloMosaic Idealize.ShloMosaic.ValueIdx

/-- A matrix of extended reals with `r` rows and `c` columns. -/
abbrev Mat (r c : ℕ) := (⟨2, ![r, c]⟩ : Shape).Idx → EReal

/-- The product `h · w` of an `[R, K]` and a `[K, N]` matrix, entry by entry. -/
def proj {R K N : ℕ} (h : Mat R K) (w : Mat K N) : Mat R N := fun i =>
  ∑ k : Fin K, h (ix2 (i 0) k) * w (ix2 k (i 1))

/-- One dense stage on split inputs: `max (a · wa + b · wb) 0`, entry by entry (the zero is the f32 zero word read at
    the ideal values). -/
def dense2 {R K H : ℕ} (a b : Mat R K) (wa wb : Mat K H) : Mat R H := fun i =>
  max ((∑ k : Fin K, a (ix2 (i 0) k) * wa (ix2 k (i 1))) + ∑ k : Fin K, b (ix2 (i 0) k) * wb (ix2 k (i 1)))
    (Ideal.ofBits .f32 0x00000000#32)

theorem proj_apply {R K N : ℕ} (h : Mat R K) (w : Mat K N) (p : Fin R) (q : Fin N) :
    proj h w (ix2 p q) = ∑ k : Fin K, h (ix2 p k) * w (ix2 k q) := rfl

theorem dense2_apply {R K H : ℕ} (a b : Mat R K) (wa wb : Mat K H) (p : Fin R) (q : Fin H) :
    dense2 a b wa wb (ix2 p q)
      = max ((∑ k : Fin K, a (ix2 p k) * wa (ix2 k q)) + ∑ k : Fin K, b (ix2 p k) * wb (ix2 k q))
          (Ideal.ofBits .f32 0x00000000#32) := rfl

/-- A sum over `K + K` joined columns is the sum over the first `K` plus the sum over the last `K`. -/
theorem sum_split (K : ℕ) (f : Fin (K + K) → EReal) :
    ∑ k : Fin (K + K), f k = (∑ k : Fin K, f (Fin.castAdd K k)) + ∑ k : Fin K, f (Fin.natAdd K k) :=
  Fin.sum_univ_add f

end Sage

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.Layer1.lean ====
/-
  The first pallas region of the idealized kernel program: what the result array of the layer-1 kernel holds
  after the region, as one function of the four arrays the region reads.

  The grid has 50 points; point `t` reads rows `2000 t … 2000 t + 1999` of the two `[100000, 512]` operands (the features
  and the neighbour means), both `[512, 64]` weight halves whole, and writes rows `2000 t … 2000 t + 1999` of the
  `[100000, 64]` result. An entry `(r, q)` of the block it writes is `max (Σ_k x[r,k]·wa[k,q] + Σ_k n[r,k]·wb[k,q]) 0`
  over the block's rows, which is the entry `(2000 t + r, q)` of `Sage.dense2` of the whole arrays; the 50 blocks
  tile the result array, so it ends holding `Sage.dense2` everywhere.
-/
import proofs.«110484_j75204877353219_1_alg».proof.Proof.Gen.KernelIdeal.Frame
import proofs.«110484_j75204877353219_1_alg».proof.Proof.Spec
import proofs.«110484_j75204877353219_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The kernel's two matrix products have the plain dimension numbers. -/
theorem plain : PlainDot.IsPlain (R := 2000) (K := 512) (N := 64) dot_S2000x512_S512x64_S2000x64_1_0_0_1_n_n :=
  ⟨rfl, rfl, rfl, rfl, rfl, rfl⟩

/-- The body's stored value at an entry of the block: the two products into zero accumulators are plain sums over
    the 512 contracted columns, added, and cut off below at zero. -/
theorem pay_apply (x0 x1 : Vec Ideal S2000x512 .f32) (x2 x3 : Vec Ideal S512x64 .f32) (y : S2000x64.Idx) :
    k0_pay1 (F := Ideal) x0 x1 x2 x3 y
      = max ((∑ k : Fin 512, x0 (ix2 (y 0) k) * x2 (ix2 k (y 1))) + ∑ k : Fin 512, x1 (ix2 (y 0) k) * x3 (ix2 k (y 1)))
          (Ideal.ofBits .f32 0x00000000#32) := by
  obtain ⟨r, q, rfl⟩ : ∃ (r : Fin 2000) (q : Fin 64), y = ix2 r q := ⟨y 0, y 1, eq_ix2 y⟩
  have e1 : matmul (F := Ideal) dot_S2000x512_S512x64_S2000x64_1_0_0_1_n_n none x0 x2 (constant (F := Ideal) S2000x64 .f32 0x00000000#32) (ix2 r q)
      = ∑ k : Fin 512, x0 (ix2 r k) * x2 (ix2 k q) := PlainDot.matmul_zero_apply plain none x0 x2 r q
  have e2 : matmul (F := Ideal) dot_S2000x512_S512x64_S2000x64_1_0_0_1_n_n none x1 x3 (constant (F := Ideal) S2000x64 .f32 0x00000000#32) (ix2 r q)
      = ∑ k : Fin 512, x1 (ix2 r k) * x3 (ix2 k q) := PlainDot.matmul_zero_apply plain none x1 x3 r q
  unfold k0_pay1
  simp only [shapeCast_self]
  rw [maximumf_apply, addf_apply, broadcast_apply, e1, e2]
  rfl

/-- An entry of the body's stored block is the entry of `Sage.dense2` of whole arrays, once the block's rows are rows of
    those arrays: stated over blocks and arrays as variables, with the reads as hypotheses. -/
theorem point_eq (x0 x1 : Vec Ideal S2000x512 .f32) (x2 x3 : Vec Ideal S512x64 .f32)
    (X N : Sage.Mat 100000 512) (WA WB : Sage.Mat 512 64) (y : S2000x64.Idx) (i : S100000x64.Idx)
    (h0 : ∀ k : Fin 512, x0 (ix2 (y 0) k) = X (ix2 (i 0) k)) (h1 : ∀ k : Fin 512, x1 (ix2 (y 0) k) = N (ix2 (i 0) k))
    (h2 : ∀ k : Fin 512, x2 (ix2 k (y 1)) = WA (ix2 k (i 1))) (h3 : ∀ k : Fin 512, x3 (ix2 k (y 1)) = WB (ix2 k (i 1))) :
    k0_pay1 (F := Ideal) x0 x1 x2 x3 y = Sage.dense2 X N WA WB i := by
  rw [pay_apply]
  unfold Sage.dense2
  simp only [h0, h1, h2, h3]

/-- The four arrays the region reads, at their literal types. -/
abbrev xArr (c : Dev nD) : Sage.Mat 100000 512 := V c main_arg0
abbrev nArr (c : Dev nD) : Sage.Mat 100000 512 := V c main_v9
abbrev waArr (c : Dev nD) : Sage.Mat 512 64 := V c main_v11
abbrev wbArr (c : Dev nD) : Sage.Mat 512 64 := V c main_v13

/-- What the region leaves in its result array. -/
abbrev h1 (c : Dev nD) : Sage.Mat 100000 64 := Sage.dense2 (xArr V c) (nArr V c) (waArr V c) (wbArr V c)

/-- The printed index maps, decided over the grid: the row-blocked windows sit at block row `t`, the weight windows at
    block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of `h1`. -/
theorem flushed_eq (c : Dev nD) (t : Fin cfg0.N) :
    (dat0 V c).flushed 4 t = ((cfg0.win 4).blk t).view.read (Elt Ideal) (h1 V c) := by
  show (cfg0.win 4).cut (grid0.coords t) ((dat0 V c).after 4 t) = _
  rw [after0_4]
  unfold out0_4
  rw [View.canon_unit_zero hz]
  simp only [View.ld_unit_zero (S := S2000x512) hz, View.ld_unit_zero (S := S512x64) hz]
  obtain ⟨e00, e01, e10, e11, e20, e21, e30, e31, e40, e41⟩ := idx_facts t
  funext j
  show k0_pay1 (iblk0 V c 0 t) (iblk0 V c 1 t) (iblk0 V c 2 t) (iblk0 V c 3 t) j = h1 V c (((cfg0.win 4).blk t).view.emb j)
  refine point_eq (iblk0 V c 0 t) (iblk0 V c 1 t) (iblk0 V c 2 t) (iblk0 V c 3 t) (xArr V c) (nArr V c) (waArr V c) (wbArr V c)
    j (((cfg0.win 4).blk t).view.emb j) ?_ ?_ ?_ ?_
  · intro k
    show V c main_arg0 (((cfg0.win 0).blk t).view.emb (ix2 (j 0) k)) = V c main_arg0 (ix2 ((((cfg0.win 4).blk t).view.emb j) 0) k)
    refine congrArg (V c main_arg0) (funext fun a => Fin.ext ?_)
    match a with
    | ⟨0, _⟩ => show win0_0.index t (0 : Fin 2) * 2000 + 1 * (j 0).val = win0_4.index t (0 : Fin 2) * 2000 + 1 * (j 0).val; rw [e00, e40]
    | ⟨1, _⟩ => show win0_0.index t (1 : Fin 2) * 512 + 1 * k.val = k.val; rw [e01]; omega
  · intro k
    show V c main_v9 (((cfg0.win 1).blk t).view.emb (ix2 (j 0) k)) = V c main_v9 (ix2 ((((cfg0.win 4).blk t).view.emb j) 0) k)
    refine congrArg (V c main_v9) (funext fun a => Fin.ext ?_)
    match a with
    | ⟨0, _⟩ => show win0_1.index t (0 : Fin 2) * 2000 + 1 * (j 0).val = win0_4.index t (0 : Fin 2) * 2000 + 1 * (j 0).val; rw [e10, e40]
    | ⟨1, _⟩ => show win0_1.index t (1 : Fin 2) * 512 + 1 * k.val = k.val; rw [e11]; omega
  · intro k
    show V c main_v11 (((cfg0.win 2).blk t).view.emb (ix2 k (j 1))) = V c main_v11 (ix2 k ((((cfg0.win 4).blk t).view.emb j) 1))
    refine congrArg (V c main_v11) (funext fun a => Fin.ext ?_)
    match a with
    | ⟨0, _⟩ => show win0_2.index t (0 : Fin 2) * 512 + 1 * k.val = k.val; rw [e20]; omega
    | ⟨1, _⟩ => show win0_2.index t (1 : Fin 2) * 64 + 1 * (j 1).val = win0_4.index t (1 : Fin 2) * 64 + 1 * (j 1).val; rw [e21, e41]
  · intro k
    show V c main_v13 (((cfg0.win 3).blk t).view.emb (ix2 k (j 1))) = V c main_v13 (ix2 k ((((cfg0.win 4).blk t).view.emb j) 1))
    refine congrArg (V c main_v13) (funext fun a => Fin.ext ?_)
    match a with
    | ⟨0, _⟩ => show win0_3.index t (0 : Fin 2) * 512 + 1 * k.val = k.val; rw [e30]; omega
    | ⟨1, _⟩ => show win0_3.index t (1 : Fin 2) * 64 + 1 * (j 1).val = win0_4.index t (1 : Fin 2) * 64 + 1 * (j 1).val; rw [e31, e41]

/-- An index of the result array is in point `t`'s block iff each coordinate is in the block's range on its axis. -/
theorem mem_blk (t : Fin cfg0.N) (i : S100000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v14).slice (win0_4.rect t)).set ↔ _
  rw [View.set_slice_whole, Rect.mem_set_unit]
  exact Iff.rfl

/-- THE RESULT ARRAY after the region: the 50 row blocks tile it (row `r` lies in block `r / 2000`), so it holds `h1`. -/
theorem final (c : Dev nD) : (dat0 V c).arrAt 4 cfg0.N = h1 V c :=
  (dat0 V c).arrAt_eq_of_cover 4 (h1 V c) (fun t _ => flushed_eq V c t) fun i => by
    have hi0 : (i 0).val < 100000 := (i 0).isLt
    have hi1 : (i 1).val < 64 := (i 1).isLt
    have hN : cfg0.N = 50 := N_0
    have ht : (i 0).val / 2000 < cfg0.N := by rw [hN]; omega
    refine ⟨⟨(i 0).val / 2000, ht⟩, flush0_4 _, ?_⟩
    rw [mem_blk]
    obtain ⟨-, -, -, -, -, -, -, -, e40, e41⟩ := idx_facts ⟨(i 0).val / 2000, ht⟩
    intro a
    match a with
    | ⟨0, _⟩ =>
      show win0_4.index ⟨(i 0).val / 2000, ht⟩ (0 : Fin 2) * 2000 ≤ (i 0).val ∧ (i 0).val < win0_4.index ⟨(i 0).val / 2000, ht⟩ (0 : Fin 2) * 2000 + 2000
      rw [e40]; dsimp only; omega
    | ⟨1, _⟩ =>
      show win0_4.index ⟨(i 0).val / 2000, ht⟩ (1 : Fin 2) * 64 ≤ (i 1).val ∧ (i 1).val < win0_4.index ⟨(i 0).val / 2000, ht⟩ (1 : Fin 2) * 64 + 64
      rw [e41]; omega

end Cert.KernelIdeal.Layer1

end
-- ==== Proof.Layer2.lean ====
/-
  The second pallas region of the idealized kernel program: what the result array of the layer-2 kernel holds after
  the region, as one function of the five arrays the region reads.

  The grid has 8 points; point `t` reads rows `2048 t … 2048 t + 2047` of the two `[16384, 64]` operands (the batch's
  own hidden rows and its neighbour means), the two `[64, 64]` weight halves and the `[64, 16]` classifier matrix whole,
  and writes rows `2048 t … 2048 t + 2047` of the `[16384, 16]` result. An entry `(r, q)` of the block it writes is
  `Σ_j max (Σ_k s[r,k]·wa[k,j] + Σ_k n[r,k]·wb[k,j]) 0 · wc[j,q]` over the block's rows: the entry `(2048 t + r, q)` of
  `Sage.proj (Sage.dense2 …) wc` of the whole arrays. The 8 blocks tile the result array.
-/
import proofs.«110484_j75204877353219_1_alg».proof.Proof.Gen.KernelIdeal.Frame
import proofs.«110484_j75204877353219_1_alg».proof.Proof.Spec
import proofs.«110484_j75204877353219_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The kernel's three matrix products have the plain dimension numbers. -/
theorem plainH : PlainDot.IsPlain (R := 2048) (K := 64) (N := 64) dot_S2048x64_S64x64_S2048x64_1_0_0_1_n_n :=
  ⟨rfl, rfl, rfl, rfl, rfl, rfl⟩
theorem plainC : PlainDot.IsPlain (R := 2048) (K := 64) (N := 16) dot_S2048x64_S64x16_S2048x16_1_0_0_1_n_n :=
  ⟨rfl, rfl, rfl, rfl, rfl, rfl⟩

/-- The body's stored value at an entry of the block: the classifier's product, over the 64 hidden columns, of the
    second dense stage (two products into zero accumulators, added, cut off below at zero). -/
theorem pay_apply (x0 x1 : Vec Ideal S2048x64 .f32) (x2 x3 : Vec Ideal S64x64 .f32) (x4 : Vec Ideal S64x16 .f32) (y : S2048x16.Idx) :
    k1_pay1 (F := Ideal) x0 x1 x2 x3 x4 y
      = ∑ j : Fin 64, max ((∑ k : Fin 64, x0 (ix2 (y 0) k) * x2 (ix2 k j)) + ∑ k : Fin 64, x1 (ix2 (y 0) k) * x3 (ix2 k j))
          (Ideal.ofBits .f32 0x00000000#32) * x4 (ix2 j (y 1)) := by
  obtain ⟨r, q, rfl⟩ : ∃ (r : Fin 2048) (q : Fin 16), y = ix2 r q := ⟨y 0, y 1, eq_ix2 y⟩
  have e1 : ∀ j : Fin 64, matmul (F := Ideal) dot_S2048x64_S64x64_S2048x64_1_0_0_1_n_n none x0 x2 (constant (F := Ideal) S2048x64 .f32 0x00000000#32) (ix2 r j)
      = ∑ k : Fin 64, x0 (ix2 r k) * x2 (ix2 k j) := fun j => PlainDot.matmul_zero_apply plainH none x0 x2 r j
  have e2 : ∀ j : Fin 64, matmul (F := Ideal) dot_S2048x64_S64x64_S2048x64_1_0_0_1_n_n none x1 x3 (constant (F := Ideal) S2048x64 .f32 0x00000000#32) (ix2 r j)
      = ∑ k : Fin 64, x1 (ix2 r k) * x3 (ix2 k j) := fun j => PlainDot.matmul_zero_apply plainH none x1 x3 r j
  unfold k1_pay1
  simp only [shapeCast_self]
  refine (PlainDot.matmul_zero_apply plainC none _ x4 r q).trans ?_
  refine Finset.sum_congr rfl fun j _ => ?_
  rw [maximumf_apply, addf_apply, broadcast_apply, e1, e2]
  rfl

/-- An entry of the body's stored block is the entry of the two stages on whole arrays, once the block's rows are rows
    of those arrays: stated over blocks and arrays as variables, with the reads as hypotheses. -/
theorem point_eq (x0 x1 : Vec Ideal S2048x64 .f32) (x2 x3 : Vec Ideal S64x64 .f32) (x4 : Vec Ideal S64x16 .f32)
    (S N : Sage.Mat 16384 64) (WA WB : Sage.Mat 64 64) (WC : Sage.Mat 64 16) (y : S2048x16.Idx) (i : S16384x16.Idx)
    (h0 : ∀ k : Fin 64, x0 (ix2 (y 0) k) = S (ix2 (i 0) k)) (h1 : ∀ k : Fin 64, x1 (ix2 (y 0) k) = N (ix2 (i 0) k))
    (h2 : ∀ k j : Fin 64, x2 (ix2 k j) = WA (ix2 k j)) (h3 : ∀ k j : Fin 64, x3 (ix2 k j) = WB (ix2 k j))
    (h4 : ∀ j : Fin 64, x4 (ix2 j (y 1)) = WC (ix2 j (i 1))) :
    k1_pay1 (F := Ideal) x0 x1 x2 x3 x4 y = Sage.proj (Sage.dense2 S N WA WB) WC i := by
  rw [pay_apply]
  simp only [h0, h1, h2, h3, h4]
  rfl

/-- The five arrays the region reads, at their literal types. -/
abbrev sArr (c : Dev nD) : Sage.Mat 16384 64 := V c main_v21
abbrev nArr (c : Dev nD) : Sage.Mat 16384 64 := V c main_v38
abbrev waArr (c : Dev nD) : Sage.Mat 64 64 := V c main_v40
abbrev wbArr (c : Dev nD) : Sage.Mat 64 64 := V c main_v42
abbrev wcArr (c : Dev nD) : Sage.Mat 64 16 := V c main_v43

/-- What the region leaves in its result array. -/
abbrev out (c : Dev nD) : Sage.Mat 16384 16 :=
  Sage.proj (Sage.dense2 (sArr V c) (nArr V c) (waArr V c) (wbArr V c)) (wcArr V c)

/-- The printed index maps, decided over the grid: the row-blocked windows sit at block row `t`, the weight windows at
    block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S2048x64) hz, View.ld_unit_zero (S := S64x64) hz, View.ld_unit_zero (S := S64x16) hz]
  obtain ⟨e00, e01, e10, e11, e20, e21, e30, e31, e40, e41, e50, e51⟩ := idx_facts t
  funext j
  show k1_pay1 (iblk1 V c 0 t) (iblk1 V c 1 t) (iblk1 V c 2 t) (iblk1 V c 3 t) (iblk1 V c 4 t) j = out V c (((cfg1.win 5).blk t).view.emb j)
  refine point_eq (iblk1 V c 0 t) (iblk1 V c 1 t) (iblk1 V c 2 t) (iblk1 V c 3 t) (iblk1 V c 4 t)
    (sArr V c) (nArr V c) (waArr V c) (wbArr V c) (wcArr V c) j (((cfg1.win 5).blk t).view.emb j) ?_ ?_ ?_ ?_ ?_
  · intro k
    show V c main_v21 (((cfg1.win 0).blk t).view.emb (ix2 (j 0) k)) = V c main_v21 (ix2 ((((cfg1.win 5).blk t).view.emb j) 0) k)
    refine congrArg (V c main_v21) (funext fun a => Fin.ext ?_)
    match a with
    | ⟨0, _⟩ => show win1_0.index t (0 : Fin 2) * 2048 + 1 * (j 0).val = win1_5.index t (0 : Fin 2) * 2048 + 1 * (j 0).val; rw [e00, e50]
    | ⟨1, _⟩ => show win1_0.index t (1 : Fin 2) * 64 + 1 * k.val = k.val; rw [e01]; omega
  · intro k
    show V c main_v38 (((cfg1.win 1).blk t).view.emb (ix2 (j 0) k)) = V c main_v38 (ix2 ((((cfg1.win 5).blk t).view.emb j) 0) k)
    refine congrArg (V c main_v38) (funext fun a => Fin.ext ?_)
    match a with
    | ⟨0, _⟩ => show win1_1.index t (0 : Fin 2) * 2048 + 1 * (j 0).val = win1_5.index t (0 : Fin 2) * 2048 + 1 * (j 0).val; rw [e10, e50]
    | ⟨1, _⟩ => show win1_1.index t (1 : Fin 2) * 64 + 1 * k.val = k.val; rw [e11]; omega
  · intro k j'
    show V c main_v40 (((cfg1.win 2).blk t).view.emb (ix2 k j')) = V c main_v40 (ix2 k j')
    refine congrArg (V c main_v40) (funext fun a => Fin.ext ?_)
    match a with
    | ⟨0, _⟩ => show win1_2.index t (0 : Fin 2) * 64 + 1 * k.val = k.val; rw [e20]; omega
    | ⟨1, _⟩ => show win1_2.index t (1 : Fin 2) * 64 + 1 * j'.val = j'.val; rw [e21]; omega
  · intro k j'
    show V c main_v42 (((cfg1.win 3).blk t).view.emb (ix2 k j')) = V c main_v42 (ix2 k j')
    refine congrArg (V c main_v42) (funext fun a => Fin.ext ?_)
    match a with
    | ⟨0, _⟩ => show win1_3.index t (0 : Fin 2) * 64 + 1 * k.val = k.val; rw [e30]; omega
    | ⟨1, _⟩ => show win1_3.index t (1 : Fin 2) * 64 + 1 * j'.val = j'.val; rw [e31]; omega
  · intro j'
    show V c main_v43 (((cfg1.win 4).blk t).view.emb (ix2 j' (j 1))) = V c main_v43 (ix2 j' ((((cfg1.win 5).blk t).view.emb j) 1))
    refine congrArg (V c main_v43) (funext fun a => Fin.ext ?_)
    match a with
    | ⟨0, _⟩ => show win1_4.index t (0 : Fin 2) * 64 + 1 * j'.val = j'.val; rw [e40]; omega
    | ⟨1, _⟩ => show win1_4.index t (1 : Fin 2) * 16 + 1 * (j 1).val = win1_5.index t (1 : Fin 2) * 16 + 1 * (j 1).val; rw [e41, e51]

/-- An index of the result array is in point `t`'s block iff each coordinate is in the block's range on its axis. -/
theorem mem_blk (t : Fin cfg1.N) (i : S16384x16.Idx) :
    i ∈ ((cfg1.win 5).blk t).view.set ↔ ∀ a : Fin 2, win1_5.index t a * S2048x16.size a ≤ (i a).val ∧ (i a).val < win1_5.index t a * S2048x16.size a + S2048x16.size a := by
  show i ∈ ((View.whole main_v44).slice (win1_5.rect t)).set ↔ _
  rw [View.set_slice_whole, Rect.mem_set_unit]
  exact Iff.rfl

/-- THE RESULT ARRAY after the region: the 8 row blocks tile it (row `r` lies in block `r / 2048`), so it holds `out`. -/
theorem final (c : Dev nD) : (dat1 V c).arrAt 5 cfg1.N = out V c :=
  (dat1 V c).arrAt_eq_of_cover 5 (out V c) (fun t _ => flushed_eq V c t) fun i => by
    have hi0 : (i 0).val < 16384 := (i 0).isLt
    have hi1 : (i 1).val < 16 := (i 1).isLt
    have hN : cfg1.N = 8 := N_1
    have ht : (i 0).val / 2048 < cfg1.N := by rw [hN]; omega
    refine ⟨⟨(i 0).val / 2048, ht⟩, flush1_5 _, ?_⟩
    rw [mem_blk]
    obtain ⟨-, -, -, -, -, -, -, -, -, -, e50, e51⟩ := idx_facts ⟨(i 0).val / 2048, ht⟩
    intro a
    match a with
    | ⟨0, _⟩ =>
      show win1_5.index ⟨(i 0).val / 2048, ht⟩ (0 : Fin 2) * 2048 ≤ (i 0).val ∧ (i 0).val < win1_5.index ⟨(i 0).val / 2048, ht⟩ (0 : Fin 2) * 2048 + 2048
      rw [e50]; dsimp only; omega
    | ⟨1, _⟩ =>
      show win1_5.index ⟨(i 0).val / 2048, ht⟩ (1 : Fin 2) * 16 ≤ (i 1).val ∧ (i 1).val < win1_5.index ⟨(i 0).val / 2048, ht⟩ (1 : Fin 2) * 16 + 16
      rw [e51]; omega

end Cert.KernelIdeal.Layer2

end
-- ==== Proof.Halves.lean ====
/-
  The weight matrices as the two kernels read them: each dense stage's `[H, K + K]` weight matrix cut into its two
  column halves, each half transposed to `[K, H]`; the classifier's `[16, 64]` matrix transposed to `[64, 16]`.
  These are the host operations the kernel's program applies to the weight arguments before its two regions.
-/
import proofs.«110484_j75204877353219_1_alg».proof.KernelIdeal
import proofs.«110484_j75204877353219_1_alg».proof.Proof.Gen.KernelIdeal
import Idealize.ShloMosaic.PureOps.Ideal

noncomputable section

namespace Cert.KernelIdeal.Halves

open Cert.KernelIdeal Cert.KernelIdeal.Facts₀ Idealize.ShloMosaic

/-- Columns `0 … 511` of the layer-1 weights, transposed. -/
def w1a (x1 : (⟨S64x1024, .f32⟩ : BufTy).Contents (Elt Ideal)) : (⟨S512x64, .f32⟩ : BufTy).Contents (Elt Ideal) :=
  transpose S512x64 [1, 0] (extractStridedSlice S64x512 ![0, 0] x1 slices_S64x1024_S64x512_0_0) transposes_S64x512_S512x64_1_0

/-- Columns `512 … 1023` of the layer-1 weights, transposed. -/
def w1b (x1 : (⟨S64x1024, .f32⟩ : BufTy).Contents (Elt Ideal)) : (⟨S512x64, .f32⟩ : BufTy).Contents (Elt Ideal) :=
  transpose S512x64 [1, 0] (extractStridedSlice S64x512 ![0, 512] x1 slices_S64x1024_S64x512_0_512) transposes_S64x512_S512x64_1_0

/-- Columns `0 … 63` of the layer-2 weights, transposed. -/
def w2a (x2 : (⟨S64x128, .f32⟩ : BufTy).Contents (Elt Ideal)) : (⟨S64x64, .f32⟩ : BufTy).Contents (Elt Ideal) :=
  transpose S64x64 [1, 0] (extractStridedSlice S64x64 ![0, 0] x2 slices_S64x128_S64x64_0_0) transposes_S64x64_S64x64_1_0

/-- Columns `64 … 127` of the layer-2 weights, transposed. -/
def w2b (x2 : (⟨S64x128, .f32⟩ : BufTy).Contents (Elt Ideal)) : (⟨S64x64, .f32⟩ : BufTy).Contents (Elt Ideal) :=
  transpose S64x64 [1, 0] (extractStridedSlice S64x64 ![0, 64] x2 slices_S64x128_S64x64_0_64) transposes_S64x64_S64x64_1_0

/-- The classifier's weights, transposed. -/
def wc (x3 : (⟨S16x64, .f32⟩ : BufTy).Contents (Elt Ideal)) : (⟨S64x16, .f32⟩ : BufTy).Contents (Elt Ideal) :=
  transpose S64x16 [1, 0] x3 transposes_S16x64_S64x16_1_0

end Cert.KernelIdeal.Halves

end
-- ==== Proof.Model.lean ====
/-
  The network's result as one function of the six arguments, in the arrangement both programs are read to.

  `hidden` is layer 1 on every node: `max (x · W1aᵀ + mean-of-neighbours(x) · W1bᵀ) 0`, the dense stage on the two
  transposed column halves of the layer-1 weights. `selfOf h` gathers the batch nodes' rows of a hidden array `h`,
  `neighOf h` averages the rows of `h` at each batch node's five sampled neighbours (both are the host's gathers at
  index arrays computed from the integer arguments, taken here as functions of `h` and never opened). `result` is
  layer 2 on those two, then the classifier's product.
-/
import proofs.«110484_j75204877353219_1_alg».proof.Proof.Gen.ReferenceIdeal.Read
import proofs.«110484_j75204877353219_1_alg».proof.Proof.Spec
import proofs.«110484_j75204877353219_1_alg».proof.Proof.Halves

noncomputable section

namespace Cert.ReferenceIdeal.RefValue

open Cert.ReferenceIdeal Cert.ReferenceIdeal.Facts₀ Cert.ReferenceIdeal.Read
open Idealize.ShloMosaic
open Cert.KernelIdeal.Halves

/-- The batch's own rows of a hidden array `h`: the gather at the (wrapped) node indices. -/
def selfOf (h : (⟨S100000x64, .f32⟩ : BufTy).Contents (Elt Ideal)) (x4 : (⟨S16384, .i32⟩ : BufTy).Contents (Elt Ideal)) :
    (⟨S16384x64, .f32⟩ : BufTy).Contents (Elt Ideal) :=
  Host.gather (α := Ideal .f32) gather_S100000x64_S16384x1_S16384x64_1_0_n_n_0_1_164 h (val_main_v19 (F := Ideal) x4)

/-- The mean over the batch's five sampled neighbours of the rows of a hidden array `h`. -/
def neighOf (h : (⟨S100000x64, .f32⟩ : BufTy).Contents (Elt Ideal)) (x4 : (⟨S16384, .i32⟩ : BufTy).Contents (Elt Ideal))
    (x5 : (⟨S100000x5, .i32⟩ : BufTy).Contents (Elt Ideal)) : (⟨S16384x64, .f32⟩ : BufTy).Contents (Elt Ideal) :=
  Host.divf (F := Ideal) (φ := .f32) (Host.reduceAdd (F := Ideal) (φ := .f32) (Host.gather (α := Ideal .f32) gather_S100000x64_S16384x5x1_S16384x5x64_2_0_n_n_0_2_164 h (val_main_v33 (F := Ideal) x4 x5))
    (val_main_cst_8 (F := Ideal)) reducesTo_S16384x5x64_S16384x64_d1 h_S_) (val_main_v36 (F := Ideal))

variable (x0 : (⟨S100000x512, .f32⟩ : BufTy).Contents (Elt Ideal)) (x1 : (⟨S64x1024, .f32⟩ : BufTy).Contents (Elt Ideal))
  (x2 : (⟨S64x128, .f32⟩ : BufTy).Contents (Elt Ideal)) (x3 : (⟨S16x64, .f32⟩ : BufTy).Contents (Elt Ideal))
  (x4 : (⟨S16384, .i32⟩ : BufTy).Contents (Elt Ideal)) (x5 : (⟨S100000x5, .i32⟩ : BufTy).Contents (Elt Ideal))

/-- The hidden array of layer 1, in the split form. -/
def hidden : (⟨S100000x64, .f32⟩ : BufTy).Contents (Elt Ideal) :=
  Sage.dense2 (R := 100000) (K := 512) (H := 64) x0 (val_main_v9 (F := Ideal) x0 x5) (w1a x1) (w1b x1)

/-- The network's result. -/
def result : (⟨S16384x16, .f32⟩ : BufTy).Contents (Elt Ideal) :=
  Sage.proj (R := 16384) (K := 64) (N := 16)
    (Sage.dense2 (R := 16384) (K := 64) (H := 64) (selfOf (hidden x0 x1 x5) x4) (neighOf (hidden x0 x1 x5) x4 x5) (w2a x2) (w2b x2)) (wc x3)

end Cert.ReferenceIdeal.RefValue

end
-- ==== Proof.KernelHost.lean ====
/-
  The host operations of the idealized kernel program, read: what each array a region reads holds when the region is
  entered, as a function of the launch contents of the arguments (and, for the second stretch, of the first region's
  result array).

  Before the first region the host computes the neighbour means of the features (the same chain of operations the
  reference applies: it is named by the reference's stage `val_main_v9` and never opened) and the two transposed
  column halves of the layer-1 weights. Between the regions it gathers the batch's rows and neighbour means out of
  the first region's result array (`selfOf`, `neighOf`) and transposes the layer-2 weight halves and the
  classifier's weights. No host operation and no region writes an argument array.
-/
import proofs.«110484_j75204877353219_1_alg».proof.Proof.Gen.KernelIdeal.Frame
import proofs.«110484_j75204877353219_1_alg».proof.Proof.Model
import Idealize.ShloMosaic.Lib.StableHlo.Run

set_option maxRecDepth 16384

noncomputable section

namespace Cert.KernelIdeal.HostRead

open Cert.KernelIdeal Cert.KernelIdeal.Gen Cert.KernelIdeal.Halves
open Idealize.ShloMosaic Idealize.ShloMosaic.TcCoe Idealize.SL.Sem Idealize.ShloMosaic.StableHlo
open Cert.ReferenceIdeal.RefValue

variable (m : (ℓ : Loc nD τ sig) → Buf (Elt Ideal) ℓ) (ρ : Dev nD → PrngReg)

/-! ## Before the first region -/

theorem V1_arg0 (c : Dev nD) : (V1 m ρ c main_arg0 : S100000x512.Idx → EReal) = m ((c.tc : Thread nD τ).loc main_arg0) := by
  show StableHlo.after hostOps0 (W0 m ρ c) (Proc.devRef .tc main_arg0) = _
  after_results

theorem V1_v9 (c : Dev nD) : (V1 m ρ c main_v9 : S100000x512.Idx → EReal)
    = Cert.ReferenceIdeal.Read.val_main_v9 (F := Ideal) (m ((c.tc : Thread nD τ).loc main_arg0)) (m ((c.tc : Thread nD τ).loc main_arg5)) := by
  show StableHlo.after hostOps0 (W0 m ρ c) (Proc.devRef .tc main_v9) = _
  after_results
  rfl

theorem V1_v11 (c : Dev nD) : (V1 m ρ c main_v11 : S512x64.Idx → EReal) = w1a (m ((c.tc : Thread nD τ).loc main_arg1)) := by
  show StableHlo.after hostOps0 (W0 m ρ c) (Proc.devRef .tc main_v11) = _
  after_results
  rfl

theorem V1_v13 (c : Dev nD) : (V1 m ρ c main_v13 : S512x64.Idx → EReal) = w1b (m ((c.tc : Thread nD τ).loc main_arg1)) := by
  show StableHlo.after hostOps0 (W0 m ρ c) (Proc.devRef .tc main_v13) = _
  after_results
  rfl

/-! ## The arguments at the first region's exit -/

theorem W1_arg (c : Dev nD) (b : Ref sig .tc) (hb : b = main_arg2 ∨ b = main_arg3 ∨ b = main_arg4 ∨ b = main_arg5) :
    W1 m ρ c (Proc.devRef .tc b) = m ((c.tc : Thread nD τ).loc b) := by
  rcases hb with rfl | rfl | rfl | rfl <;>
  · show StableHlo.after hostOps0 (W0 m ρ c) _ = _
    after_results

theorem W2_arg2 (c : Dev nD) : W2 m ρ c (Proc.devRef .tc main_arg2) = m ((c.tc : Thread nD τ).loc main_arg2) :=
  (W2_of_ne m ρ c main_arg2 (by decide)).trans (W1_arg m ρ c main_arg2 (.inl rfl))
theorem W2_arg3 (c : Dev nD) : W2 m ρ c (Proc.devRef .tc main_arg3) = m ((c.tc : Thread nD τ).loc main_arg3) :=
  (W2_of_ne m ρ c main_arg3 (by decide)).trans (W1_arg m ρ c main_arg3 (.inr (.inl rfl)))
theorem W2_arg4 (c : Dev nD) : W2 m ρ c (Proc.devRef .tc main_arg4) = m ((c.tc : Thread nD τ).loc main_arg4) :=
  (W2_of_ne m ρ c main_arg4 (by decide)).trans (W1_arg m ρ c main_arg4 (.inr (.inr (.inl rfl))))
theorem W2_arg5 (c : Dev nD) : W2 m ρ c (Proc.devRef .tc main_arg5) = m ((c.tc : Thread nD τ).loc main_arg5) :=
  (W2_of_ne m ρ c main_arg5 (by decide)).trans (W1_arg m ρ c main_arg5 (.inr (.inr (.inr rfl))))

/-! ## Between the regions -/

/-- The first region's result array at its exit. -/
abbrev h1At (c : Dev nD) : S100000x64.Idx → EReal := W2 m ρ c (Proc.devRef .tc main_v14)

theorem V3_v21 (c : Dev nD) : (V3 m ρ c main_v21 : S16384x64.Idx → EReal)
    = selfOf (h1At m ρ c) (m ((c.tc : Thread nD τ).loc main_arg4)) := by
  show StableHlo.after hostOps1 (W2 m ρ c) (Proc.devRef .tc main_v21) = _
  after_results
  rw [W2_arg4]
  rfl

theorem V3_v38 (c : Dev nD) : (V3 m ρ c main_v38 : S16384x64.Idx → EReal)
    = neighOf (h1At m ρ c) (m ((c.tc : Thread nD τ).loc main_arg4)) (m ((c.tc : Thread nD τ).loc main_arg5)) := by
  show StableHlo.after hostOps1 (W2 m ρ c) (Proc.devRef .tc main_v38) = _
  after_results_simp
  rw [W2_arg4, W2_arg5]
  rfl

theorem V3_v40 (c : Dev nD) : (V3 m ρ c main_v40 : S64x64.Idx → EReal) = w2a (m ((c.tc : Thread nD τ).loc main_arg2)) := by
  show StableHlo.after hostOps1 (W2 m ρ c) (Proc.devRef .tc main_v40) = _
  after_results
  rw [W2_arg2]
  rfl

theorem V3_v42 (c : Dev nD) : (V3 m ρ c main_v42 : S64x64.Idx → EReal) = w2b (m ((c.tc : Thread nD τ).loc main_arg2)) := by
  show StableHlo.after hostOps1 (W2 m ρ c) (Proc.devRef .tc main_v42) = _
  after_results
  rw [W2_arg2]
  rfl

theorem V3_v43 (c : Dev nD) : (V3 m ρ c main_v43 : S64x16.Idx → EReal) = wc (m ((c.tc : Thread nD τ).loc main_arg3)) := by
  show StableHlo.after hostOps1 (W2 m ρ c) (Proc.devRef .tc main_v43) = _
  after_results
  rw [W2_arg3]
  rfl

end Cert.KernelIdeal.HostRead

end
-- ==== Proof.KernelValue.lean ====
/-
  The idealized kernel program's result array after its run, as `result` of the six arguments.

  The run's post names the result array at the last segment boundary's contents. That is the second region's result
  array as its write-backs leave it: `Sage.proj (Sage.dense2 …)` of the five arrays the region reads (`Layer2.final`),
  which the host operations between the regions computed from the first region's result array and the arguments;
  the first region's result array is `Sage.dense2` of the four arrays it reads (`Layer1.final`), which the host
  operations before it computed from the arguments. Substituting gives `result`.
-/
import proofs.«110484_j75204877353219_1_alg».proof.Proof.KernelRun
import proofs.«110484_j75204877353219_1_alg».proof.Proof.Layer1
import proofs.«110484_j75204877353219_1_alg».proof.Proof.Layer2
import proofs.«110484_j75204877353219_1_alg».proof.Proof.KernelHost
import proofs.«110484_j75204877353219_1_alg».proof.Proof.Model

set_option maxRecDepth 16384

noncomputable section

namespace Cert.KernelIdeal.Net

open Cert.KernelIdeal Cert.KernelIdeal.Gen Cert.KernelIdeal.Halves Cert.KernelIdeal.HostRead
open Idealize.ShloMosaic Idealize.ShloMosaic.TcCoe Idealize.SL.Sem
open Cert.ReferenceIdeal.RefValue

variable (m : (ℓ : Loc nD τ sig) → Buf (Elt Ideal) ℓ) (ρ : Dev nD → PrngReg)

theorem dense2_congr {R K H : ℕ} {a a' b b' : Sage.Mat R K} {wa wa' wb wb' : Sage.Mat K H}
    (ha : a = a') (hb : b = b') (hwa : wa = wa') (hwb : wb = wb') :
    Sage.dense2 a b wa wb = Sage.dense2 a' b' wa' wb' := by subst ha hb hwa hwb; rfl

theorem proj_congr {R K N : ℕ} {h h' : Sage.Mat R K} {w w' : Sage.Mat K N} (hh : h = h') (hw : w = w') :
    Sage.proj h w = Sage.proj h' w' := by subst hh hw; rfl

/-- The first region's result array at its exit is the hidden array of layer 1. -/
theorem h1At_eq (c : Dev nD) : h1At m ρ c
    = Cert.ReferenceIdeal.RefValue.hidden (m ((c.tc : Thread nD τ).loc main_arg0)) (m ((c.tc : Thread nD τ).loc main_arg1)) (m ((c.tc : Thread nD τ).loc main_arg5)) := by
  show W2 m ρ c (Proc.devRef .tc (Pipeline.arrRef spec0 4)) = _
  rw [W2_arr m ρ c 4, Layer1.final (V1 m ρ) c]
  unfold Cert.ReferenceIdeal.RefValue.hidden
  exact dense2_congr (V1_arg0 m ρ c) (V1_v9 m ρ c) (V1_v11 m ρ c) (V1_v13 m ρ c)

/-- The result array at the last boundary is the network's result of the launch contents of the arguments. -/
theorem result_eq (c : Dev nD) : W4 m ρ c (Proc.devRef .tc main_v44)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  show W4 m ρ c (Proc.devRef .tc (Pipeline.arrRef spec1 5)) = _
  rw [W4_arr m ρ c 5, Layer2.final (V3 m ρ) c]
  unfold result
  refine proj_congr (dense2_congr ?_ ?_ (V3_v40 m ρ c) (V3_v42 m ρ c)) (V3_v43 m ρ c)
  · exact (V3_v21 m ρ c).trans (by rw [h1At_eq])
  · exact (V3_v38 m ρ c).trans (by rw [h1At_eq])

/-- THE RUN, READ: every weakly fair execution terminates with the result array at `result` of the arguments' launch
    contents, the arguments unchanged. -/
theorem run : θ_run defs (onTc (τ := τ) (main (F := Ideal))) ⟨m, fun _ => 0, ρ⟩ (fun r => ∀ c : Dev nD,
      r.2.mem ((c.tc : Thread nD τ).loc main_v44)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.Run.run_main m ρ)

end Cert.KernelIdeal.Net

end
-- ==== Proof.LibConcatDot.lean ====
/-
  A product with two matrices joined side by side, read as two products (general in the sizes).

  Let `a` and `b` be `[R, K]` matrices and `w` an `[H, K + K]` matrix. Joining `a` and `b` along the columns into
  `[R, K + K]` and multiplying by the transpose of `w` gives, at the entry `(p, q)`, the sum over the `K + K` joined
  columns of `join(a, b)[p, k] · w[q, k]`. The first `K` columns of the join are `a`'s and the last `K` are `b`'s, so the
  sum is `Σ_{k<K} a[p,k]·w[q,k] + Σ_{k<K} b[p,k]·w[q,K+k]`: the two products of `a` and of `b` with the transposed
  column halves of `w`. Cut off below at zero this is `Sage.dense2`. Only commutativity and associativity of the
  addition of extended reals are used (a finite sum split in two), so the law holds at infinite entries too.

  Also here: a host's general dot product with the plain dimension numbers is `Sage.proj`.
-/
import proofs.«110484_j75204877353219_1_alg».proof.Proof.Spec
import proofs.«110484_j75204877353219_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

open scoped BigOperators

noncomputable section

namespace Sage

open Idealize.ShloMosaic Idealize.ShloMosaic.ValueIdx

variable {R K H : ℕ}

/-- The join of `a` and `b` along the columns, at a column of the first half, is `a`. -/
theorem join_left (hcat : Shape.Concatenates [(⟨2, ![R, K]⟩ : Shape), (⟨2, ![R, K]⟩ : Shape)] (⟨2, ![R, K + K]⟩ : Shape) 1)
    (a b : Mat R K) (p : Fin R) (k : Fin K) :
    concatenate (α := EReal) (⟨2, ![R, K + K]⟩ : Shape) 1 [⟨(⟨2, ![R, K]⟩ : Shape), a⟩, ⟨(⟨2, ![R, K]⟩ : Shape), b⟩] hcat (ix2 p (Fin.castAdd K k))
      = a (ix2 p k) :=
  concatenate_pair_apply_left (1 : Fin 2) a b hcat (ix2 p (Fin.castAdd K k)) rfl (ix2 p k)
    (fun c => match c with | ⟨0, _⟩ => rfl | ⟨1, _⟩ => rfl)

/-- The join of `a` and `b` along the columns, at a column of the second half, is `b`. -/
theorem join_right (hcat : Shape.Concatenates [(⟨2, ![R, K]⟩ : Shape), (⟨2, ![R, K]⟩ : Shape)] (⟨2, ![R, K + K]⟩ : Shape) 1)
    (a b : Mat R K) (p : Fin R) (k : Fin K) :
    concatenate (α := EReal) (⟨2, ![R, K + K]⟩ : Shape) 1 [⟨(⟨2, ![R, K]⟩ : Shape), a⟩, ⟨(⟨2, ![R, K]⟩ : Shape), b⟩] hcat (ix2 p (Fin.natAdd K k))
      = b (ix2 p k) :=
  concatenate_pair_apply_right (1 : Fin 2) a b hcat (ix2 p (Fin.natAdd K k)) rfl rfl (ix2 p k)
    (fun c hc => match c, hc with | ⟨0, _⟩, _ => rfl | ⟨1, _⟩, hc => absurd rfl hc)
    (by show k.val + K = K + k.val; omega)

/-- The transposed first column half of `w`, at `(k, q)`, is `w[q, k]`. -/
theorem half0_apply (hs : (⟨2, ![H, K + K]⟩ : Shape).Slices ![0, 0] (⟨2, ![H, K]⟩ : Shape))
    (ht : (⟨2, ![H, K]⟩ : Shape).Transposes [1, 0] (⟨2, ![K, H]⟩ : Shape)) (w : Mat H (K + K)) (k : Fin K) (q : Fin H) :
    transpose (⟨2, ![K, H]⟩ : Shape) [1, 0] (extractStridedSlice (⟨2, ![H, K]⟩ : Shape) ![0, 0] w hs) ht (ix2 k q)
      = w (ix2 q (Fin.castAdd K k)) := by
  rw [transpose_ix2_apply]
  exact extractStridedSlice_apply _ w hs (ix2 q k) (ix2 q (Fin.castAdd K k))
    (fun c => match c with | ⟨0, _⟩ => by show q.val = 0 + q.val; omega | ⟨1, _⟩ => by show k.val = 0 + k.val; omega)

/-- The transposed second column half of `w`, at `(k, q)`, is `w[q, K + k]`. -/
theorem half1_apply (hs : (⟨2, ![H, K + K]⟩ : Shape).Slices ![0, K] (⟨2, ![H, K]⟩ : Shape))
    (ht : (⟨2, ![H, K]⟩ : Shape).Transposes [1, 0] (⟨2, ![K, H]⟩ : Shape)) (w : Mat H (K + K)) (k : Fin K) (q : Fin H) :
    transpose (⟨2, ![K, H]⟩ : Shape) [1, 0] (extractStridedSlice (⟨2, ![H, K]⟩ : Shape) ![0, K] w hs) ht (ix2 k q)
      = w (ix2 q (Fin.natAdd K k)) := by
  rw [transpose_ix2_apply]
  exact extractStridedSlice_apply _ w hs (ix2 q k) (ix2 q (Fin.natAdd K k))
    (fun c => match c with | ⟨0, _⟩ => by show q.val = 0 + q.val; omega | ⟨1, _⟩ => rfl)

/-- THE LAW: the joined product, cut off below at a zero array, is the dense stage on the two transposed column halves. -/
theorem dense_join (d : DotDims (⟨2, ![R, K + K]⟩ : Shape) (⟨2, ![K + K, H]⟩ : Shape) (⟨2, ![R, H]⟩ : Shape))
    (hd : PlainDot.IsPlain d)
    (hcat : Shape.Concatenates [(⟨2, ![R, K]⟩ : Shape), (⟨2, ![R, K]⟩ : Shape)] (⟨2, ![R, K + K]⟩ : Shape) 1)
    (htr : (⟨2, ![H, K + K]⟩ : Shape).Transposes [1, 0] (⟨2, ![K + K, H]⟩ : Shape))
    (hs0 : (⟨2, ![H, K + K]⟩ : Shape).Slices ![0, 0] (⟨2, ![H, K]⟩ : Shape))
    (hs1 : (⟨2, ![H, K + K]⟩ : Shape).Slices ![0, K] (⟨2, ![H, K]⟩ : Shape))
    (ht : (⟨2, ![H, K]⟩ : Shape).Transposes [1, 0] (⟨2, ![K, H]⟩ : Shape))
    (a b : Mat R K) (w : Mat H (K + K)) (z : Mat R H) (hz : ∀ i, z i = Ideal.ofBits .f32 0x00000000#32) :
    maximumf (F := Ideal) (φ := .f32)
        (Host.dotGeneral (F := Ideal) (φ₁ := .f32) (φ₂ := .f32) d none
          (concatenate (α := EReal) (⟨2, ![R, K + K]⟩ : Shape) 1 [⟨(⟨2, ![R, K]⟩ : Shape), a⟩, ⟨(⟨2, ![R, K]⟩ : Shape), b⟩] hcat)
          (transpose (⟨2, ![K + K, H]⟩ : Shape) [1, 0] w htr)) z
      = dense2 a b (transpose (⟨2, ![K, H]⟩ : Shape) [1, 0] (extractStridedSlice (⟨2, ![H, K]⟩ : Shape) ![0, 0] w hs0) ht)
          (transpose (⟨2, ![K, H]⟩ : Shape) [1, 0] (extractStridedSlice (⟨2, ![H, K]⟩ : Shape) ![0, K] w hs1) ht) := by
  funext i
  obtain ⟨p, q, rfl⟩ : ∃ (p : Fin R) (q : Fin H), i = ix2 p q := ⟨i 0, i 1, eq_ix2 i⟩
  rw [maximumf_apply, dense2_apply, hz]
  refine congrArg (max · _) ?_
  refine (PlainDot.dotGeneral_apply hd none .single _ _ p q).trans ?_
  rw [sum_split]
  congr 1
  · refine Finset.sum_congr rfl fun k _ => ?_
    rw [join_left, half0_apply, transpose_ix2_apply]
  · refine Finset.sum_congr rfl fun k _ => ?_
    rw [join_right, half1_apply, transpose_ix2_apply]

/-- A host's general dot product with the plain dimension numbers is the matrix product. -/
theorem proj_dot {N : ℕ} (d : DotDims (⟨2, ![R, K]⟩ : Shape) (⟨2, ![K, N]⟩ : Shape) (⟨2, ![R, N]⟩ : Shape))
    (hd : PlainDot.IsPlain d) (h : Mat R K) (w : Mat K N) :
    Host.dotGeneral (F := Ideal) (φ₁ := .f32) (φ₂ := .f32) d none h w = proj h w := by
  funext i
  obtain ⟨p, q, rfl⟩ : ∃ (p : Fin R) (q : Fin N), i = ix2 p q := ⟨i 0, i 1, eq_ix2 i⟩
  exact (PlainDot.dotGeneral_apply hd none .single h w p q).trans (proj_apply h w p q).symm

end Sage

end
-- ==== Proof.RefSide.lean ====
/-
  The reference program's result as the two dense stages over the shared gathers.

  The reference joins the features and the neighbour means side by side and multiplies by the whole transposed
  layer-1 weight matrix; by `Sage.dense_join` its hidden array is `Sage.dense2` on the two transposed column halves
  of the weights (`hidden_eq`). The batch's self rows and neighbour means are gathers of that hidden array at index
  arrays computed from the integer arguments (`selfOf`, `neighOf`: the gathers taken as functions of the hidden
  array, never opened); layer 2 is the same join (`dense_join` again) and the classifier a plain product
  (`Sage.proj_dot`).
-/
import proofs.«110484_j75204877353219_1_alg».proof.Proof.Gen.ReferenceIdeal.Run
import proofs.«110484_j75204877353219_1_alg».proof.Proof.Gen.ReferenceIdeal.Read
import proofs.«110484_j75204877353219_1_alg».proof.Proof.Spec
import proofs.«110484_j75204877353219_1_alg».proof.Proof.LibPlainDot
import proofs.«110484_j75204877353219_1_alg».proof.Proof.LibConcatDot
import proofs.«110484_j75204877353219_1_alg».proof.Proof.Halves
import proofs.«110484_j75204877353219_1_alg».proof.Proof.Model

noncomputable section

namespace Cert.ReferenceIdeal.RefValue

open Cert.ReferenceIdeal Cert.ReferenceIdeal.Facts₀ Cert.ReferenceIdeal.Read
open Idealize.ShloMosaic Idealize.ShloMosaic.ValueIdx
open Cert.KernelIdeal.Halves

variable (x0 : (⟨S100000x512, .f32⟩ : BufTy).Contents (Elt Ideal)) (x1 : (⟨S64x1024, .f32⟩ : BufTy).Contents (Elt Ideal))
  (x2 : (⟨S64x128, .f32⟩ : BufTy).Contents (Elt Ideal)) (x3 : (⟨S16x64, .f32⟩ : BufTy).Contents (Elt Ideal))
  (x4 : (⟨S16384, .i32⟩ : BufTy).Contents (Elt Ideal)) (x5 : (⟨S100000x5, .i32⟩ : BufTy).Contents (Elt Ideal))

theorem plain1 : PlainDot.IsPlain (R := 100000) (K := 512 + 512) (N := 64) dot_S100000x1024_S1024x64_S100000x64_1_0_0_1_n_n :=
  ⟨rfl, rfl, rfl, rfl, rfl, rfl⟩
theorem plain2 : PlainDot.IsPlain (R := 16384) (K := 64 + 64) (N := 64) dot_S16384x128_S128x64_S16384x64_1_0_0_1_n_n :=
  ⟨rfl, rfl, rfl, rfl, rfl, rfl⟩
theorem plain3 : PlainDot.IsPlain (R := 16384) (K := 64) (N := 16) dot_S16384x64_S64x16_S16384x16_1_0_0_1_n_n :=
  ⟨rfl, rfl, rfl, rfl, rfl, rfl⟩

/-- The reference's hidden array is the split form. -/
theorem hidden_eq : val_main_v13 (F := Ideal) x0 x1 x5 = hidden x0 x1 x5 := by
  unfold hidden val_main_v13 val_main_v12 val_main_v10 val_main_v11
  exact Sage.dense_join (R := 100000) (K := 512) (H := 64) dot_S100000x1024_S1024x64_S100000x64_1_0_0_1_n_n plain1
    concatenates_S100000x512_S100000x512_S100000x1024_d1 transposes_S64x1024_S1024x64_1_0
    Cert.KernelIdeal.Facts₀.slices_S64x1024_S64x512_0_0 Cert.KernelIdeal.Facts₀.slices_S64x1024_S64x512_0_512
    Cert.KernelIdeal.Facts₀.transposes_S64x512_S512x64_1_0
    x0 (val_main_v9 (F := Ideal) x0 x5) x1 (val_main_call0_v0 (F := Ideal))
    (fun i => by rw [val_main_call0_v0_apply, val_main_call0_cst_apply]; rfl)

/-- THE REFERENCE'S RESULT: the classifier's product of the second dense stage on the gathered rows of the first. -/
theorem result_eq : val_main_v43 (F := Ideal) x0 x1 x2 x3 x4 x5 = result x0 x1 x2 x3 x4 x5 := by
  unfold result
  have h2 : val_main_v41 (F := Ideal) x0 x1 x2 x4 x5
      = Sage.dense2 (R := 16384) (K := 64) (H := 64) (selfOf (hidden x0 x1 x5) x4) (neighOf (hidden x0 x1 x5) x4 x5) (w2a x2) (w2b x2) := by
    unfold val_main_v41 val_main_v40 val_main_v38 val_main_v39 val_main_v20 val_main_v37 val_main_v35 val_main_v34
    rw [hidden_eq]
    exact Sage.dense_join (R := 16384) (K := 64) (H := 64) dot_S16384x128_S128x64_S16384x64_1_0_0_1_n_n plain2
      concatenates_S16384x64_S16384x64_S16384x128_d1 transposes_S64x128_S128x64_1_0
      Cert.KernelIdeal.Facts₀.slices_S64x128_S64x64_0_0 Cert.KernelIdeal.Facts₀.slices_S64x128_S64x64_0_64
      Cert.KernelIdeal.Facts₀.transposes_S64x64_S64x64_1_0
      (selfOf (hidden x0 x1 x5) x4) (neighOf (hidden x0 x1 x5) x4 x5) x2 (val_main_call1_v0 (F := Ideal))
      (fun i => by rw [val_main_call1_v0_apply, val_main_call1_cst_apply]; rfl)
  unfold val_main_v43
  rw [h2]
  exact Sage.proj_dot (R := 16384) (K := 64) (N := 16) dot_S16384x64_S64x16_S16384x16_1_0_0_1_n_n plain3 _ _

end Cert.ReferenceIdeal.RefValue

end
-- ==== Proof.lean ====
/-
  A two-layer mean-aggregating graph network (layer 1 on all 100000 nodes, layer 2 and a classifier on a batch of
  16384 nodes): the Pallas program against its jnp reference, over the extended reals.

  Both programs average each node's five sampled neighbours' feature rows with the same host operations. The
  reference then joins a node's own row and that mean side by side, `[·, K + K]`, and multiplies by the whole transposed
  weight matrix; the kernel program multiplies the two `[·, K]` parts by the two transposed column halves of the weights
  and adds. A sum over the `K + K` joined columns is the sum over the first `K` plus the sum over the last `K`, so the two
  agree entry by entry (`Sage.dense_join`), in both layers; the gathers between the layers and the classifier's product
  are the same operations in both programs. Only commutativity and associativity of the addition of extended reals are
  used, so the finiteness precondition is never opened.

  The kernel program's frames are the generated ones; its value is read off its run region by region
  (`Cert.KernelIdeal.Net.run`); the reference's frame and value are its generated run (`Cert.ReferenceIdeal.Value.run`)
  read through `Cert.ReferenceIdeal.RefValue.result_eq`. The ideal pass rewrote nothing, so `preserves` is `True`.
-/
import proofs.«110484_j75204877353219_1_alg».proof.Defs
import proofs.«110484_j75204877353219_1_alg».proof.Proof.Gen.Kernel
import proofs.«110484_j75204877353219_1_alg».proof.Proof.Gen.Kernel.Frame
import proofs.«110484_j75204877353219_1_alg».proof.Proof.Gen.KernelIdeal
import proofs.«110484_j75204877353219_1_alg».proof.Proof.Gen.KernelIdeal.Frame
import proofs.«110484_j75204877353219_1_alg».proof.Proof.Gen.ReferenceIdeal
import proofs.«110484_j75204877353219_1_alg».proof.Proof.Gen.ReferenceIdeal.Run
import proofs.«110484_j75204877353219_1_alg».proof.Proof.Gen.ReferenceIdeal.Read
import proofs.«110484_j75204877353219_1_alg».proof.Proof.Gen.Pre_finite_inputs
import proofs.«110484_j75204877353219_1_alg».proof.Proof.KernelValue
import proofs.«110484_j75204877353219_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `result` of the arguments, which agree. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v43_eq, Cert.ReferenceIdeal.RefValue.result_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
